-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x256 : Shape := ⟨3, ![4096, 32, 256]⟩
abbrev S4096x32 : Shape := ⟨2, ![4096, 32]⟩
abbrev S_ : Shape := ⟨0, ![]⟩

class Facts : Prop where
  bcast_S_S4096x32x256 : S_.BroadcastsInDim S4096x32x256 (![] : Fin 0 → Fin S4096x32x256.rank)
  reducesTo_S4096x32x256_S_d0_1_2 : S4096x32x256.ReducesTo [0, 1, 2] S_
  h_S_ : 0 < S_.numel

variable [Facts]

def fn {F : FTy → Type} [FloatOps F] (main_arg0 : FVec F S4096x32x256 .f32) (main_arg1 : IVec S4096x32 32) : IVec S_ 1 :=
  let main_v0 : FVec F S4096x32x256 .f32 := Host.absf main_arg0
  let main_cst : FVec F S_ .f32 := constant S_ .f32 0x7F800000#32
  let main_v1 : FVec F S4096x32x256 .f32 := broadcastInDim S4096x32x256 ![] bcast_S_S4096x32x256 main_cst
  let main_v2 : IVec S4096x32x256 1 := cmpf .olt main_v0 main_v1
  let main_c : IVec S_ 1 := constantI S_ 1 1#1
  let main_v3 : IVec S_ 1 := (fun x v => Host.reduce IntOp.andi x v reducesTo_S4096x32x256_S_d0_1_2 h_S_) main_v2 main_c
  main_v3
-- ==== Kernel.lean ====
abbrev S4096x32x256 : Shape := ⟨3, ![4096, 32, 256]⟩
abbrev S4096x32 : Shape := ⟨2, ![4096, 32]⟩
abbrev S1x1 : Shape := ⟨2, ![1, 1]⟩
abbrev S128x32x256 : Shape := ⟨3, ![128, 32, 256]⟩
abbrev S128x32 : Shape := ⟨2, ![128, 32]⟩
abbrev S128x32x1 : Shape := ⟨3, ![128, 32, 1]⟩
abbrev S128x32x32 : Shape := ⟨3, ![128, 32, 32]⟩
abbrev S128x1x32 : Shape := ⟨3, ![128, 1, 32]⟩
abbrev S32x32 : Shape := ⟨2, ![32, 32]⟩
abbrev S1x32x32 : Shape := ⟨3, ![1, 32, 32]⟩
abbrev S128 : Shape := ⟨1, ![128]⟩
abbrev S1x128 : Shape := ⟨2, ![1, 128]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S4096x32x256, .f32⟩
  | .hbm, ⟨1, _⟩ => ⟨S4096x32, .i32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S128x32x256, .f32⟩
  | .local _ .vmem, ⟨1, _⟩ => ⟨S128x32x256, .f32⟩
  | .local _ .vmem, ⟨2, _⟩ => ⟨S128x32, .i32⟩
  | .local _ .vmem, ⟨3, _⟩ => ⟨S128x32, .i32⟩
  | .local _ .vmem, ⟨4, _⟩ => ⟨S1x1, .f32⟩
  | _, _ => ⟨S4096x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S128x32x256_S128x32x256_0_0_0 : ∀ a, (![0, 0, 0] : Fin 3 → Nat) a + S128x32x256.size a ≤ S128x32x256.size a
  h_S128x32x256 : 0 < S128x32x256.numel
  reduces_S128x32x256_S128x32 : S128x32x256.Reduces [2] S128x32
  shapeCasts_S128x32_S128x32x1 : S128x32.ShapeCasts S128x32x1
  broadcasts_S128x32x1_S128x32x256 : S128x32x1.Broadcasts S128x32x256
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x1x32 : S128x32.ShapeCasts S128x1x32
  broadcasts_S128x32x1_S128x32x32 : S128x32x1.Broadcasts S128x32x32
  broadcasts_S128x1x32_S128x32x32 : S128x1x32.Broadcasts S128x32x32
  iota_S32x32_d0_w32 : S32x32.Iotas .tc 32 [0]
  iota_S32x32_d1_w32 : S32x32.Iotas .tc 32 [1]
  natLt_1_32 : 1 < 32
  shapeCasts_S32x32_S1x32x32 : S32x32.ShapeCasts S1x32x32
  broadcasts_S1x32x32_S128x32x32 : S1x32x32.Broadcasts S128x32x32
  reduces_S128x32x32_S128x32 : S128x32x32.Reduces [2] S128x32
  reduces_S128x32_S128 : S128x32.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  dot_S128x32x256_S128x32x256_S128x32x32_2_2_1_1_0_0_wf : DotDims.WF S128x32x256 S128x32x256 S128x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x256.size a ≤ S4096x32x256.size a
  hwx0_0 : ∀ i : grid0.Coords, EltTy.bits .f32 = 32 ∨ (Rect.block (s := S4096x32x256) S128x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S4096x32.size a
  hwx0_1 : ∀ i : grid0.Coords, EltTy.bits .i32 = 32 ∨ (Rect.block (s := S4096x32) S128x32.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S128x32x256_S128x32x256_S128x32x32_2_2_1_1_0_0 : DotDims S128x32x256 S128x32x256 S128x32x32 where
  lhsContracting := [2]
  rhsContracting := [2]
  lhsNonContracting := [1]
  rhsNonContracting := [1]
  lhsBatch := [0]
  rhsBatch := [0]
  wf := dot_S128x32x256_S128x32x256_S128x32x32_2_2_1_1_0_0_wf

abbrev win0_0 : Pipeline.Window sig grid0 :=
  Pipeline.Window.ofSpec (Memref.whole main_arg0) S128x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32x256 : Shape := ⟨3, ![4096, 32, 256]⟩
abbrev S4096x32 : Shape := ⟨2, ![4096, 32]⟩
abbrev S_ : Shape := ⟨0, ![]⟩
abbrev S4096x32x1 : Shape := ⟨3, ![4096, 32, 1]⟩
abbrev S4096x32x32 : Shape := ⟨3, ![4096, 32, 32]⟩
abbrev S4096x1x32 : Shape := ⟨3, ![4096, 1, 32]⟩
abbrev S32x32 : Shape := ⟨2, ![32, 32]⟩
abbrev S1x32x32 : Shape := ⟨3, ![1, 32, 32]⟩

abbrev nBuf : Space → Nat
  | .hbm => 47
  | .vmem => 0
  | .smem => 0
  | _ => 0

abbrev bufTy : (tb : Table) → Fin (tcTables nBuf tb) → BufTy
  | .hbm, ⟨0, _⟩ => ⟨S4096x32x256, .f32⟩
  | .hbm, ⟨1, _⟩ => ⟨S4096x32, .i32⟩
  | .hbm, ⟨2, _⟩ => ⟨S4096x32x256, .f32⟩
  | .hbm, ⟨3, _⟩ => ⟨S_, .f32⟩
  | .hbm, ⟨4, _⟩ => ⟨S4096x32, .f32⟩
  | .hbm, ⟨5, _⟩ => ⟨S4096x32x1, .f32⟩
  | .hbm, ⟨6, _⟩ => ⟨S4096x32x1, .f32⟩
  | .hbm, ⟨7, _⟩ => ⟨S_, .f32⟩
  | .hbm, ⟨8, _⟩ => ⟨S4096x32x1, .f32⟩
  | .hbm, ⟨9, _⟩ => ⟨S4096x32x1, .f32⟩
  | .hbm, ⟨10, _⟩ => ⟨S4096x32x256, .f32⟩
  | .hbm, ⟨11, _⟩ => ⟨S4096x32x256, .f32⟩
  | .hbm, ⟨12, _⟩ => ⟨S4096x32x32, .f32⟩
  | .hbm, ⟨13, _⟩ => ⟨S4096x32x1, .i32⟩
  | .hbm, ⟨14, _⟩ => ⟨S4096x1x32, .i32⟩
  | .hbm, ⟨15, _⟩ => ⟨S4096x32x32, .i32⟩
  | .hbm, ⟨16, _⟩ => ⟨S4096x32x32, .i32⟩
  | .hbm, ⟨17, _⟩ => ⟨S4096x32x32, .i1⟩
  | .hbm, ⟨18, _⟩ => ⟨S_, .f32⟩
  | .hbm, ⟨19, _⟩ => ⟨S4096x32x32, .f32⟩
  | .hbm, ⟨20, _⟩ => ⟨S4096x32x32, .f32⟩
  | .hbm, ⟨21, _⟩ => ⟨S_, .f32⟩
  | .hbm, ⟨22, _⟩ => ⟨S4096x32x32, .f32⟩
  | .hbm, ⟨23, _⟩ => ⟨S4096x32x32, .f32⟩
  | .hbm, ⟨24, _⟩ => ⟨S_, .f32⟩
  | .hbm, ⟨25, _⟩ => ⟨S4096x32x32, .f32⟩
  | .hbm, ⟨26, _⟩ => ⟨S4096x32x32, .f32⟩
  | .hbm, ⟨27, _⟩ => ⟨S4096x32x32, .f32⟩
  | .hbm, ⟨28, _⟩ => ⟨S_, .i1⟩
  | .hbm, ⟨29, _⟩ => ⟨S32x32, .i1⟩
  | .hbm, ⟨30, _⟩ => ⟨S32x32, .i32⟩
  | .hbm, ⟨31, _⟩ => ⟨S_, .i32⟩
  | .hbm, ⟨32, _⟩ => ⟨S32x32, .i32⟩
  | .hbm, ⟨33, _⟩ => ⟨S32x32, .i32⟩
  | .hbm, ⟨34, _⟩ => ⟨S32x32, .i32⟩
  | .hbm, ⟨35, _⟩ => ⟨S32x32, .i1⟩
  | .hbm, ⟨36, _⟩ => ⟨S_, .i1⟩
  | .hbm, ⟨37, _⟩ => ⟨S32x32, .i1⟩
  | .hbm, ⟨38, _⟩ => ⟨S32x32, .i1⟩
  | .hbm, ⟨39, _⟩ => ⟨S1x32x32, .i1⟩
  | .hbm, ⟨40, _⟩ => ⟨S1x32x32, .f32⟩
  | .hbm, ⟨41, _⟩ => ⟨S4096x32x32, .f32⟩
  | .hbm, ⟨42, _⟩ => ⟨S4096x32x32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4096x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_call3_v0 : Ref sig .tc := ⟨.hbm, 30, rfl⟩
abbrev main_call3_c : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_call3_c_0 : Ref sig .tc := ⟨.hbm, 36, rfl⟩
abbrev main_call3_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩

abbrev nD : Nat := 1
abbrev τ : Topo := Topo.v7x

variable {F : FTy → Type} [FloatOps F]

class Facts₀ : Prop where
  reducesTo_S4096x32x256_S4096x32_d2 : S4096x32x256.ReducesTo [2] S4096x32
  h_S_ : 0 < S_.numel
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x256_0_1_2 : S4096x32x1.BroadcastsInDim S4096x32x256 (![0, 1, 2] : Fin 3 → Fin S4096x32x256.rank)
  bcast_S4096x32_S4096x1x32_0_2 : S4096x32.BroadcastsInDim S4096x1x32 (![0, 2] : Fin 2 → Fin S4096x1x32.rank)
  bcast_S4096x32x1_S4096x32x32_0_1_2 : S4096x32x1.BroadcastsInDim S4096x32x32 (![0, 1, 2] : Fin 3 → Fin S4096x32x32.rank)
  bcast_S4096x1x32_S4096x32x32_0_1_2 : S4096x1x32.BroadcastsInDim S4096x32x32 (![0, 1, 2] : Fin 3 → Fin S4096x32x32.rank)
  bcast_S_S4096x32x32 : S_.BroadcastsInDim S4096x32x32 (![] : Fin 0 → Fin S4096x32x32.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S4096x32x32_0_1_2 : S1x32x32.BroadcastsInDim S4096x32x32 (![0, 1, 2] : Fin 3 → Fin S4096x32x32.rank)
  reducesTo_S4096x32x32_S_d0_1_2 : S4096x32x32.ReducesTo [0, 1, 2] S_
  dot_S4096x32x256_S4096x32x256_S4096x32x32_2_2_1_1_0_0_wf : DotDims.WF S4096x32x256 S4096x32x256 S4096x32x32 [2] [2] [1] [1] [0] [0]

variable [Facts₀]

def dot_S4096x32x256_S4096x32x256_S4096x32x32_2_2_1_1_0_0 : DotDims S4096x32x256 S4096x32x256 S4096x32x32 where
  lhsContracting := [2]
  rhsContracting := [2]
  lhsNonContracting := [1]
  rhsNonContracting := [1]
  lhsBatch := [0]
  rhsBatch := [0]
  wf := dot_S4096x32x256_S4096x32x256_S4096x32x32_2_2_1_1_0_0_wf

class Facts : Prop extends Facts₀ where

variable [Facts]
-- ==== Proof.Spec.lean ====
/-
  The quantity both programs compute, stated once over plain functions on the extended reals.

  A batch entry holds 32 rows of 256 numbers and 32 rhyme labels. Each row is divided by its Euclidean norm,
  the norm kept at least a small positive constant; the cosine similarity of rows i and j is the dot product
  of the two normalised rows. A pair with equal labels costs one minus its similarity, a pair with different
  labels costs the similarity's excess over one half, never less than zero. Only pairs with i < j count: the
  cost is multiplied by a weight that is one there and zero elsewhere. The loss is the sum of the weighted
  costs over every batch entry and every pair, divided by the number of counted pairs.

  Addition on the extended reals is commutative and associative with no side condition, so the sum may be
  taken in any grouping: here, the 4096 batch entries as 32 consecutive groups of 128.
-/
import Idealize.ShloMosaic.PureOps.Ideal
import Idealize.ShloMosaic.PureOps.Ideal.Laws
import Idealize.ShloMosaic.Lib.ValueIdx

noncomputable section

namespace Cert.RhymeLoss

open Idealize.ShloMosaic

/-- The lower bound on a row's norm (the binary value of the single-precision word nearest 1e-8). -/
abbrev normFloor : EReal := Ideal.ofBits .f32 0x322BCC77#32
/-- One, one half and zero, as the words both programs write. -/
abbrev oneW : EReal := Ideal.ofBits .f32 0x3F800000#32
abbrev halfW : EReal := Ideal.ofBits .f32 0x3F000000#32
abbrev zeroW : EReal := Ideal.ofBits .f32 0x00000000#32
/-- The number of counted pairs, 4096 · 496, as the word both programs divide by. -/
abbrev pairCount : EReal := Ideal.ofBits .f32 0x49F80000#32

/-- A row's Euclidean norm, kept at least `normFloor`. -/
def rowNorm (r : Fin 256 → EReal) : EReal := max (Ideal.sqrt (∑ d : Fin 256, r d * r d)) normFloor

/-- The cosine similarity of two rows: the dot product of the rows divided by their norms. -/
def cosSim (p q : Fin 256 → EReal) : EReal :=
  ∑ d : Fin 256, Ideal.div (p d) (rowNorm p) * Ideal.div (q d) (rowNorm q)

/-- The cost of one pair of rows with labels `s` and `u`. -/
def pairCost (p q : Fin 256 → EReal) (s u : BitVec 32) : EReal :=
  Scalar.select (IntOp.cmpi .eq s u) (oneW - cosSim p q) (max (cosSim p q - halfW) zeroW)

/-- The weight of the pair (i, j): one when i < j, zero otherwise. -/
def upper (i j : Fin 32) : EReal := if i < j then 1 else 0

/-- The summed weighted cost of one batch entry. -/
def entryLoss (x : Fin 32 → Fin 256 → EReal) (s : Fin 32 → BitVec 32) : EReal :=
  ∑ i : Fin 32, ∑ j : Fin 32, pairCost (x i) (x j) (s i) (s j) * upper i j

/-- The loss: every entry's summed cost, divided by the number of counted pairs. -/
def loss (X : Fin 4096 → Fin 32 → Fin 256 → EReal) (S : Fin 4096 → Fin 32 → BitVec 32) : EReal :=
  Ideal.div (∑ b : Fin 4096, entryLoss (X b) (S b)) pairCount

/-! ## The weight, in the two spellings the programs use -/

/-- "i is less than j" as a signed comparison of the two positions' 32-bit words, widened to a word and read
    as a signed integer: one when i < j, zero otherwise. -/
theorem slt_widened_toInt : ∀ i j : Fin 32,
    ((IntOp.cmpi .slt (BitVec.ofNat 32 i.val) (BitVec.ofNat 32 j.val)).setWidth 32).toInt = if i < j then 1 else 0 := by
  decide +kernel

/-- "not (i + 0 ≥ j)" as a choice between the false bit and the true bit, read as a natural number: one when
    i < j, zero otherwise. -/
theorem not_sge_toNat : ∀ i j : Fin 32,
    (Scalar.select (IntOp.cmpi .sge (IntOp.addi (BitVec.ofNat 32 i.val) 0#32) (BitVec.ofNat 32 j.val)) (0#1 : BitVec 1) (1#1 : BitVec 1)).toNat
      = if i < j then 1 else 0 := by
  decide +kernel

/-! ## Regrouping the batch -/

/-- Batch entry `128 t + r`, for a group `t` of 32 and a position `r` of 128 inside it. -/
def entryOf (t : Fin 32) (r : Fin 128) : Fin 4096 := ⟨128 * t.val + r.val, by have := t.isLt; have := r.isLt; omega⟩

/-- A sum over the 4096 batch entries is the sum over the 32 groups of the sums over each group's 128 entries. -/
theorem sum_entries_by_group {M : Type*} [AddCommMonoid M] (g : Fin 4096 → M) :
    ∑ b : Fin 4096, g b = ∑ t : Fin 32, ∑ r : Fin 128, g (entryOf t r) := by
  rw [← Fintype.sum_prod_type' (f := fun t r => g (entryOf t r))]
  rw [← Equiv.sum_comp (finProdFinEquiv (m := 32) (n := 128)) g]
  refine Finset.sum_congr rfl fun p _ => congrArg g (Fin.ext ?_)
  simp [entryOf, finProdFinEquiv]
  omega

end Cert.RhymeLoss

end
-- ==== Proof.LibSum3.lean ====
/-
  A sum over the index set of a rank-3 array is the triple sum over its three coordinates.
-/
import Idealize.ShloMosaic.Lib.ValueIdx

noncomputable section

open scoped BigOperators

namespace Cert.Lib

open Idealize.ShloMosaic Idealize.ShloMosaic.ValueIdx

/-- A rank-3 index is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set, coordinate by coordinate, in any commutative monoid. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib

end
-- ==== Proof.RefSide.lean ====
/-
  The reference program's result, read one stage at a time, is the loss of the specification.

  Its stages at the index (b, i, j): the squared entries of row (b, i) summed from zero and rooted give the
  row's norm, kept at least the floor; every entry divided by its row's norm; the contraction over the last
  axis of rows (b, i) and (b, j) is the cosine similarity; the labels of the two rows compared; the choice
  between one minus the similarity and the excess over one half; the triangle's weight, built by comparing
  the two positions and converting the bit. The total is the sum over every index from zero, divided by the
  number of counted pairs.
-/
import proofs.«125377_j80152679678796_1_alg».proof.Proof.Gen.ReferenceIdeal.Run
import proofs.«125377_j80152679678796_1_alg».proof.Proof.Gen.ReferenceIdeal.Read
import proofs.«125377_j80152679678796_1_alg».proof.Proof.Spec
import proofs.«125377_j80152679678796_1_alg».proof.Proof.LibSum3

noncomputable section

namespace Cert.ReferenceIdeal.RefValue

open Cert.ReferenceIdeal Cert.ReferenceIdeal.Read Cert.RhymeLoss
open Idealize.ShloMosaic Idealize.ShloMosaic.ValueIdx

/-- Row (b, i) of the embeddings, as a function of the position inside the row. -/
abbrev rowOf (X : S4096x32x256.Idx → EReal) (b : Fin 4096) (i : Fin 32) : Fin 256 → EReal := fun d => X (ix3 b i d)
/-- The label of row (b, i). -/
abbrev labelOf (S : S4096x32.Idx → BitVec 32) (b : Fin 4096) (i : Fin 32) : BitVec 32 := S (ix2 b i)

/-- The clamped norm stage at row (b, i). -/
theorem norm_at (X : S4096x32x256.Idx → EReal) (b : Fin 4096) (i : Fin 32) (u : Fin 1) :
    val_main_v2 (F := Ideal) X (ix3 b i u) = rowNorm (rowOf X b i) := by
  rw [val_main_v2_apply, val_main_v0_apply, val_main_call0_v2_apply, val_main_call0_v1_apply, val_main_v1_apply,
    val_main_cst_apply, val_main_call0_cst_apply]
  have e : ∀ k : Fin 256, idx_main_call0_v1 (idx_main_call0_v2 (ix3 b i u)) k = ix3 b i k := fun k =>
    funext fun a => Fin.ext (by match a with | ⟨0, _⟩ => rfl | ⟨1, _⟩ => rfl | ⟨2, _⟩ => rfl)
  simp only [val_main_call0_v0_apply, Ideal.maximumf_def, Ideal.hostUnary_sqrt_def, Ideal.ofBits_def, Ideal.mulf_def,
    Ideal.ofBits_zero_f32, zero_add, e]
  rfl

/-- The normalised entry (b, i, d). -/
theorem unit_at (X : S4096x32x256.Idx → EReal) (b : Fin 4096) (i : Fin 32) (d : Fin 256) :
    val_main_v4 (F := Ideal) X (ix3 b i d) = Ideal.div (X (ix3 b i d)) (rowNorm (rowOf X b i)) := by
  have e : idx_main_v3 (ix3 b i d) = ix3 b i (0 : Fin 1) :=
    funext fun a => Fin.ext (by match a with | ⟨0, _⟩ => rfl | ⟨1, _⟩ => rfl | ⟨2, _⟩ => rfl)
  rw [val_main_v4_apply, val_main_v3_apply, Ideal.hostDivf_def, e, norm_at]

/-- The similarity stage at (b, i, j). -/
theorem sim_at (X : S4096x32x256.Idx → EReal) (b : Fin 4096) (i j : Fin 32) :
    val_main_v5 (F := Ideal) X (ix3 b i j) = cosSim (rowOf X b i) (rowOf X b j) := by
  rw [val_main_v5_apply]
  unfold cosSim
  refine Finset.sum_congr rfl fun d _ => ?_
  have el : lidx_main_v5 (ix3 b i j) d = ix3 b i d :=
    funext fun a => Fin.ext (by match a with | ⟨0, _⟩ => rfl | ⟨1, _⟩ => rfl | ⟨2, _⟩ => rfl)
  have er : ridx_main_v5 (ix3 b i j) d = ix3 b j d :=
    funext fun a => Fin.ext (by match a with | ⟨0, _⟩ => rfl | ⟨1, _⟩ => rfl | ⟨2, _⟩ => rfl)
  rw [el, er, unit_at, unit_at]

/-- The triangle's weight at (b, i, j). -/
theorem weight_at (b : Fin 4096) (i j : Fin 32) : val_main_v21 (F := Ideal) (ix3 b i j) = upper i j := by
  rw [val_main_v21_apply, val_main_v20_apply, val_main_v19_apply, val_main_v18_apply, val_main_call3_v4_apply,
    val_main_call3_v2_apply, val_main_call3_v0_apply, val_main_call3_v1_apply, val_main_call3_c_apply,
    val_main_call3_v3_apply, val_main_call3_v5_apply, val_main_call3_c_0_apply, val_main_v17_apply, val_main_c_apply]
  show (((Scalar.select (IntOp.cmpi .sge (IntOp.addi (BitVec.ofNat 32 i.val) 0#32) (BitVec.ofNat 32 j.val)) (0#1 : BitVec 1) (1#1 : BitVec 1)).toNat : ℝ) : EReal) = upper i j
  rw [not_sge_toNat]
  unfold upper
  split <;> simp

/-- The weighted cost at (b, i, j). -/
theorem cost_at (X : S4096x32x256.Idx → EReal) (S : S4096x32.Idx → BitVec 32) (b : Fin 4096) (i j : Fin 32) :
    val_main_v22 (F := Ideal) X S (ix3 b i j)
      = pairCost (rowOf X b i) (rowOf X b j) (labelOf S b i) (labelOf S b j) * upper i j := by
  rw [val_main_v22_apply, val_main_v16_apply, val_main_v10_apply, val_main_v8_apply, val_main_v6_apply, val_main_v9_apply,
    val_main_v7_apply, val_main_v12_apply, val_main_v11_apply, val_main_cst_0_apply, val_main_v15_apply, val_main_v14_apply,
    val_main_v13_apply, val_main_cst_1_apply, val_main_call1_v0_apply, val_main_call1_cst_apply, sim_at, weight_at]
  have e1 : idx_main_v6 (idx_main_v8 (ix3 b i j)) = ix2 b i :=
    funext fun a => Fin.ext (by match a with | ⟨0, _⟩ => rfl | ⟨1, _⟩ => rfl)
  have e2 : idx_main_v7 (idx_main_v9 (ix3 b i j)) = ix2 b j :=
    funext fun a => Fin.ext (by match a with | ⟨0, _⟩ => rfl | ⟨1, _⟩ => rfl)
  rw [e1, e2]
  rfl

/-- The reference's result is the loss of its two arguments. -/
theorem result_eq (X : S4096x32x256.Idx → EReal) (S : S4096x32.Idx → BitVec 32) :
    val_main_v24 (F := Ideal) X S = fun _ => loss (fun b i d => X (ix3 b i d)) (fun b i => S (ix2 b i)) := by
  funext z
  rw [val_main_v24_apply, val_main_v23_apply, val_main_cst_2_apply, val_main_cst_3_apply, Ideal.hostDivf_def, Ideal.ofBits_def,
    Ideal.ofBits_zero_f32, zero_add, Cert.Lib.sum_idx3]
  unfold loss entryLoss
  refine congrArg (Ideal.div · _) (Finset.sum_congr rfl fun b _ => Finset.sum_congr rfl fun i _ => Finset.sum_congr rfl fun j _ => ?_)
  exact cost_at X S b i j

end Cert.ReferenceIdeal.RefValue

end
-- ==== Proof.KernelFold.lean ====
/-
  What the kernel's one-element result array holds after the run: the sum, over the 32 grid points, of the
  number each point computes from its two input blocks.

  At the first point the body stores zero in the accumulator, reads it back and stores the read value plus the
  point's number; at every later point it stores what the point before left plus the point's number. So after
  point n the accumulator holds the sum of the numbers of points 0 … n (from zero), by induction on the point.
  Only the last point writes the accumulator back, and its one-element block is the whole array.
-/
import proofs.«125377_j80152679678796_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Fold

open Cert.KernelIdeal Cert.KernelIdeal.Gen

theorem zero2 : (![0, 0] : Fin 2 → Nat) = fun _ => 0 := funext fun a => by fin_cases a <;> rfl
theorem zero3 : (![0, 0, 0] : Fin 3 → Nat) = fun _ => 0 := funext fun a => by fin_cases a <;> rfl

section AnyInstance

variable {F : FTy → Type} [FloatOps F]

/-- A later point: over an accumulator holding `acc`, the body leaves the accumulating store's value of the
    point's number and `acc`. -/
theorem later_point (c : Dev nD) (i : grid0.Coords) (a1 : Memref sig .tc .vmem S128x32x256 .f32) (h1 : a1.IsWhole)
    (a2 : Memref sig .tc .vmem S128x32 .i32) (h2 : a2.IsWhole) (a3 : Memref sig .tc .vmem S1x1 .f32) (h3 : a3.IsWhole)
    (hc : ¬cond0_0 i) (x0 : Vec F S128x32x256 .f32) (x1 : Vec F S128x32 .i32) (acc : Vec F S1x1 .f32) :
    out0_B_2 c i a1 h1 a2 h2 a3 h3 hc x0 x1 acc = k0_pay1 (k0_pay3 x0 x1) acc := by
  unfold out0_B_2
  rw [View.read_writes_eq_canon _ _ _ (cover0_B_2 c i a1 h1 a2 h2 a3 h3 hc x0 x1 acc)]
  unfold kernelRun0_B
  dsimp only
  sl_unfold_words
  rw [View.canon_unit_zero zero2]
  simp only [View.readAt_eq_ld, h1.read_unread, h2.read_unread, h3.read_unread, View.ld_unit_zero (S := S128x32x256) zero3,
    View.ld_unit_zero (S := S128x32) zero2, View.ld_unit_zero (S := S1x1) zero2]

/-- The first point: the same over the zero the body has just stored. -/
theorem first_point (c : Dev nD) (i : grid0.Coords) (a1 : Memref sig .tc .vmem S128x32x256 .f32) (h1 : a1.IsWhole)
    (a2 : Memref sig .tc .vmem S128x32 .i32) (h2 : a2.IsWhole) (a3 : Memref sig .tc .vmem S1x1 .f32) (h3 : a3.IsWhole)
    (hc : cond0_0 i) (x0 : Vec F S128x32x256 .f32) (x1 : Vec F S128x32 .i32) :
    out0_A_2 c i a1 h1 a2 h2 a3 h3 hc x0 x1 = k0_pay1 (k0_pay3 x0 x1) k0_pay2 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) zero2, View.readCov_unit_zero (S := S1x1) _ zero2]
  simp only [View.readAt_eq_ld, h1.read_unread, h2.read_unread, View.ld_unit_zero (S := S128x32x256) zero3,
    View.ld_unit_zero (S := S128x32) zero2, View.ld_unit_zero (S := S1x1) zero2]

end AnyInstance

/-! ## The running sum, on the extended reals -/

variable (m : (ℓ : Loc nD τ sig) → Buf (Elt Ideal) ℓ) (ρ : Dev nD → PrngReg)

/-- The block of embeddings and the block of labels grid point `t` works on. -/
abbrev embBlock (c : Dev nD) (t : Fin cfg0.N) : Vec Ideal S128x32x256 .f32 := iblk m c 0 t
abbrev labBlock (c : Dev nD) (t : Fin cfg0.N) : Vec Ideal S128x32 .i32 := iblk m c 1 t

/-- The number point `s` adds to the accumulator (zero past the grid, so that it is defined on every natural). -/
def pointTerm (c : Dev nD) (s : ℕ) : EReal :=
  if h : s < cfg0.N then k0_pay3 (F := Ideal) (embBlock m c ⟨s, h⟩) (labBlock m c ⟨s, h⟩) else 0

/-- The accumulating store's value at its one index: the accumulator there plus the number. -/
theorem pay1_apply (v : EReal) (acc : Vec Ideal S1x1 .f32) (y : S1x1.Idx) :
    k0_pay1 (F := Ideal) v acc y = acc y + v := by
  unfold k0_pay1
  rw [shapeCast_self]
  rfl

/-- After point `n` the accumulator holds the sum of the numbers of points 0 … n. -/
theorem acc_eq (c : Dev nD) : ∀ (n : ℕ) (h : n < cfg0.N),
    outsAt0 (F := Ideal) m c n h = fun _ => ∑ s ∈ Finset.range (n + 1), pointTerm m c s
  | 0, h => by
    rw [outsAt0_A m c ⟨0, h⟩ rfl, first_point]
    funext y
    rw [pay1_apply]
    show Ideal.ofBits .f32 0x00000000#32 + _ = _
    rw [Ideal.ofBits_zero_f32, zero_add, Finset.sum_range_one]
    unfold pointTerm
    rw [dif_pos h]
  | n + 1, h => by
    have hN : cfg0.N = 32 := N_0
    have hB : ¬(⟨n + 1, h⟩ : Fin cfg0.N).val % 32 = 0 := by dsimp only; omega
    rw [outsAt0_B m c ⟨n + 1, h⟩ hB, later_point]
    funext y
    rw [pay1_apply]
    show outsAt0 m c n _ y + _ = _
    rw [acc_eq c n, Finset.sum_range_succ _ (n + 1)]
    unfold pointTerm
    rw [dif_pos h]

/-- The whole run's sum. -/
def runSum (c : Dev nD) : EReal := ∑ s ∈ Finset.range 32, pointTerm m c s

/-- The same as contents of the one-element result array. -/
abbrev total (c : Dev nD) : Buf (Elt Ideal) ((c : Thread nD τ).loc main_v0) := fun _ => runSum m c

/-- The one write-back, at the last point, writes the whole run's sum. -/
theorem flushed_eq (c : Dev nD) (t : Fin cfg0.N) (hf : (cfg0.win 2).flush t = true) :
    (dats m 0 c).flushed 2 t = ((cfg0.win 2).blk t).view.read (Elt Ideal) (total m c) := by
  have hN : cfg0.N = 32 := N_0
  have h31 : t.val + 1 = 32 := by have := (flush0_2 t).mp hf; have := t.isLt; omega
  show (cfg0.win 2).cut (grid0.coords t) ((dats m 0 c).after 2 t) = _
  rw [after0_2, acc_eq, h31]
  rfl

/-- The last grid point. -/
abbrev lastPoint : Fin cfg0.N := ⟨31, by rw [show cfg0.N = 32 from N_0]; decide⟩

/-- So the result array ends holding it: the last point's block is the whole one-element array. -/
theorem final_eq (c : Dev nD) : (dats m 0 c).arrAt 2 cfg0.N = total m c := by
  refine (dats m 0 c).arrAt_eq_of_cover 2 (total m c) (flushed_eq m c) fun i => ⟨lastPoint, (flush0_2 lastPoint).mpr rfl, ?_⟩
  show i ∈ ((View.whole main_v0).slice (win0_2.rect lastPoint)).set
  rw [View.set_slice_whole, Rect.mem_set_unit]
  intro a
  match a with
  | ⟨0, _⟩ =>
    show win0_2.index lastPoint 0 * win0_2.size 0 ≤ (i 0 : Nat)
      ∧ (i 0 : Nat) < win0_2.index lastPoint 0 * win0_2.size 0 + win0_2.xsize (grid0.coords lastPoint) 0
    have h0 : (i 0 : Nat) < 1 := (i 0).isLt
    rw [show win0_2.index lastPoint 0 * win0_2.size 0 = 0 from by decide +kernel,
      show win0_2.xsize (grid0.coords lastPoint) 0 = 1 from by decide +kernel]
    omega
  | ⟨1, _⟩ =>
    show win0_2.index lastPoint 1 * win0_2.size 1 ≤ (i 1 : Nat)
      ∧ (i 1 : Nat) < win0_2.index lastPoint 1 * win0_2.size 1 + win0_2.xsize (grid0.coords lastPoint) 1
    have h1 : (i 1 : Nat) < 1 := (i 1).isLt
    rw [show win0_2.index lastPoint 1 * win0_2.size 1 = 0 from by decide +kernel,
      show win0_2.xsize (grid0.coords lastPoint) 1 = 1 from by decide +kernel]
    omega

end Cert.KernelIdeal.Fold

end
-- ==== Proof.KernelPay.lean ====
/-
  The number one grid point computes from its block of 128 batch entries: the sum of the entries' summed
  weighted costs, as the specification defines them.

  The point's arithmetic is one pure term of the two loaded blocks. Read at an index it is, stretch by stretch:
  the squares of row (r, i) summed along the row; that sum rooted and kept at least the floor, laid out with a
  trailing unit axis; every entry divided by its row's value, the unit axis spread along the row; the block
  product contracting the last axis of rows (r, i) and (r, j) into a zero accumulator (a change of number
  format on the way is the identity on the extended reals); the labels of the two rows, each spread over the
  other's axis, compared; the choice between one minus the similarity and the excess over one half; the
  triangle's weight from the two positions' words; and three sums, over j, over i and over r.
-/
import proofs.«125377_j80152679678796_1_alg».proof.Proof.Gen.KernelIdeal.Skeleton
import proofs.«125377_j80152679678796_1_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Cert.RhymeLoss
open Idealize.ShloMosaic Idealize.ShloMosaic.ValueIdx

variable (x0 : Vec Ideal S128x32x256 .f32) (x1 : Vec Ideal S128x32 .i32)

/-- Row (r, i) of the block, and its label. -/
abbrev rowK (r : Fin 128) (i : Fin 32) : Fin 256 → EReal := fun d => x0 (ix3 r i d)
abbrev labK (r : Fin 128) (i : Fin 32) : BitVec 32 := x1 (ix2 r i)

/-! ## The norms -/

/-- The squares summed along each row. -/
abbrev sqSum : FVec Ideal S128x32 .f32 :=
  multiReduction .add [2] S128x32 (mulf x0 x0) 0x00000000#32 reduces_S128x32x256_S128x32 (.inl rfl) rfl

theorem sqSum_apply (r : Fin 128) (i : Fin 32) :
    sqSum x0 (ix2 r i) = ∑ d : Fin 256, x0 (ix3 r i d) * x0 (ix3 r i d) := by
  refine (Ideal.multiReduction_add_single (mulf x0 x0) 0x00000000#32 reduces_S128x32x256_S128x32 (.inl rfl) rfl (ix2 r i)).trans ?_
  refine Finset.sum_congr rfl fun d _ => ?_
  have e : reduces_S128x32x256_S128x32.lift (ix2 r i) d = ix3 r i d :=
    funext fun a => Fin.ext (by match a with | ⟨0, _⟩ => rfl | ⟨1, _⟩ => rfl | ⟨2, _⟩ => rfl)
  rw [e]
  rfl

/-- Each row's norm, kept at least the floor, with a trailing unit axis. -/
abbrev normK : FVec Ideal S128x32x1 .f32 :=
  maximumf (sqrt (shapeCast S128x32x1 (sqSum x0) shapeCasts_S128x32_S128x32x1))
    (broadcast S128x32x1 (Scalar.ofBits .f32 0x322BCC77#32))

theorem normK_apply (r : Fin 128) (i : Fin 32) (u : Fin 1) : normK x0 (ix3 r i u) = rowNorm (rowK x0 r i) := by
  have hu := u.isLt
  have e : shapeCast S128x32x1 (sqSum x0) shapeCasts_S128x32_S128x32x1 (ix3 r i u) = sqSum x0 (ix2 r i) :=
    shapeCast_apply _ _ (ix3 r i u) (ix2 r i) (by
      rw [Shape.rowMajor_val_two, Shape.rowMajor_val_three]
      show r.val * 32 + i.val = (r.val * 32 + i.val) * 1 + u.val
      omega)
  show max (Ideal.sqrt (shapeCast S128x32x1 (sqSum x0) shapeCasts_S128x32_S128x32x1 (ix3 r i u))) (Ideal.ofBits .f32 0x322BCC77#32) = _
  rw [e, sqSum_apply]
  rfl

/-! ## The normalised block and the similarities -/

/-- Every entry divided by its row's norm. -/
abbrev unitK : FVec Ideal S128x32x256 .f32 :=
  divf x0 (broadcastTo S128x32x256 (normK x0) broadcasts_S128x32x1_S128x32x256)

theorem unitK_apply (r : Fin 128) (i : Fin 32) (d : Fin 256) :
    unitK x0 (ix3 r i d) = Ideal.div (x0 (ix3 r i d)) (rowNorm (rowK x0 r i)) := by
  have e : broadcastTo S128x32x256 (normK x0) broadcasts_S128x32x1_S128x32x256 (ix3 r i d) = normK x0 (ix3 r i (0 : Fin 1)) :=
    broadcastTo_apply _ _ (ix3 r i d) (ix3 r i (0 : Fin 1)) (fun a => by
      match a with | ⟨0, _⟩ => rfl | ⟨1, _⟩ => rfl | ⟨2, _⟩ => rfl)
  show Ideal.div (x0 (ix3 r i d)) (broadcastTo S128x32x256 (normK x0) broadcasts_S128x32x1_S128x32x256 (ix3 r i d)) = _
  rw [e, normK_apply]

/-- The block product's operand indices, axis by axis: the batch axis and the kept axis come from the output
    index, the contracted axis from the contraction index. -/
theorem lhsK_0 (i : S128x32x32.Idx) (q : dot_S128x32x256_S128x32x256_S128x32x32_2_2_1_1_0_0.contr.Idx) : (dot_S128x32x256_S128x32x256_S128x32x32_2_2_1_1_0_0.lhsIdx i q 0).val = (i 0).val := by
  unfold DotDims.lhsIdx
  rw [dif_pos (show (0 : Fin S128x32x256.rank) ∈ dot_S128x32x256_S128x32x256_S128x32x32_2_2_1_1_0_0.lhsBatch by decide)]
  rfl
theorem lhsK_1 (i : S128x32x32.Idx) (q : dot_S128x32x256_S128x32x256_S128x32x32_2_2_1_1_0_0.contr.Idx) : (dot_S128x32x256_S128x32x256_S128x32x32_2_2_1_1_0_0.lhsIdx i q 1).val = (i 1).val := by
  unfold DotDims.lhsIdx
  rw [dif_neg (show ¬(1 : Fin S128x32x256.rank) ∈ dot_S128x32x256_S128x32x256_S128x32x32_2_2_1_1_0_0.lhsBatch by decide),
    dif_pos (show (1 : Fin S128x32x256.rank) ∈ dot_S128x32x256_S128x32x256_S128x32x32_2_2_1_1_0_0.lhsNonContracting by decide)]
  rfl
theorem lhsK_2 (i : S128x32x32.Idx) (q : dot_S128x32x256_S128x32x256_S128x32x32_2_2_1_1_0_0.contr.Idx) : (dot_S128x32x256_S128x32x256_S128x32x32_2_2_1_1_0_0.lhsIdx i q 2).val = (q ⟨0, by decide⟩).val :=
  dot_S128x32x256_S128x32x256_S128x32x32_2_2_1_1_0_0.lhsIdx_val_of_single rfl i q
theorem rhsK_0 (i : S128x32x32.Idx) (q : dot_S128x32x256_S128x32x256_S128x32x32_2_2_1_1_0_0.contr.Idx) : (dot_S128x32x256_S128x32x256_S128x32x32_2_2_1_1_0_0.rhsIdx i q 0).val = (i 0).val := by
  unfold DotDims.rhsIdx
  rw [dif_pos (show (0 : Fin S128x32x256.rank) ∈ dot_S128x32x256_S128x32x256_S128x32x32_2_2_1_1_0_0.rhsBatch by decide)]
  rfl
theorem rhsK_1 (i : S128x32x32.Idx) (q : dot_S128x32x256_S128x32x256_S128x32x32_2_2_1_1_0_0.contr.Idx) : (dot_S128x32x256_S128x32x256_S128x32x32_2_2_1_1_0_0.rhsIdx i q 1).val = (i 2).val := by
  unfold DotDims.rhsIdx
  rw [dif_neg (show ¬(1 : Fin S128x32x256.rank) ∈ dot_S128x32x256_S128x32x256_S128x32x32_2_2_1_1_0_0.rhsBatch by decide),
    dif_pos (show (1 : Fin S128x32x256.rank) ∈ dot_S128x32x256_S128x32x256_S128x32x32_2_2_1_1_0_0.rhsNonContracting by decide)]
  rfl
theorem rhsK_2 (i : S128x32x32.Idx) (q : dot_S128x32x256_S128x32x256_S128x32x32_2_2_1_1_0_0.contr.Idx) : (dot_S128x32x256_S128x32x256_S128x32x32_2_2_1_1_0_0.rhsIdx i q 2).val = (q ⟨0, by decide⟩).val :=
  dot_S128x32x256_S128x32x256_S128x32x32_2_2_1_1_0_0.rhsIdx_val_of_single rfl i q

/-- The similarities of all pairs of rows of each entry. -/
abbrev simsK : FVec Ideal S128x32x32 .f32 :=
  matmul dot_S128x32x256_S128x32x256_S128x32x32_2_2_1_1_0_0 none (truncf .bf16 (unitK x0) bitsLt_bf16_f32) (truncf .bf16 (unitK x0) bitsLt_bf16_f32)
    (constant S128x32x32 .f32 0x00000000#32)

theorem simsK_apply (r : Fin 128) (i j : Fin 32) : simsK x0 (ix3 r i j) = cosSim (rowK x0 r i) (rowK x0 r j) := by
  refine (Ideal.matmul_constant_zero_apply dot_S128x32x256_S128x32x256_S128x32x32_2_2_1_1_0_0 none _ _ (ix3 r i j)).trans ?_
  rw [← Equiv.sum_comp (contrEquiv1 dot_S128x32x256_S128x32x256_S128x32x32_2_2_1_1_0_0 256 rfl rfl).symm]
  unfold cosSim
  refine Finset.sum_congr rfl fun k _ => ?_
  have hk := contrEquiv1_symm_val dot_S128x32x256_S128x32x256_S128x32x32_2_2_1_1_0_0 256 rfl rfl k
  have el : dot_S128x32x256_S128x32x256_S128x32x32_2_2_1_1_0_0.lhsIdx (ix3 r i j) ((contrEquiv1 dot_S128x32x256_S128x32x256_S128x32x32_2_2_1_1_0_0 256 rfl rfl).symm k) = ix3 r i k := funext fun a => Fin.ext (by
    match a with
    | ⟨0, _⟩ => exact lhsK_0 _ _
    | ⟨1, _⟩ => exact lhsK_1 _ _
    | ⟨2, _⟩ => exact (lhsK_2 _ _).trans hk)
  have er : dot_S128x32x256_S128x32x256_S128x32x32_2_2_1_1_0_0.rhsIdx (ix3 r i j) ((contrEquiv1 dot_S128x32x256_S128x32x256_S128x32x32_2_2_1_1_0_0 256 rfl rfl).symm k) = ix3 r j k := funext fun a => Fin.ext (by
    match a with
    | ⟨0, _⟩ => exact rhsK_0 _ _
    | ⟨1, _⟩ => exact rhsK_1 _ _
    | ⟨2, _⟩ => exact (rhsK_2 _ _).trans hk)
  rw [el, er]
  show unitK x0 (ix3 r i k) * unitK x0 (ix3 r j k) = _
  rw [unitK_apply, unitK_apply]

/-! ## The labels, the weight and the weighted cost -/

/-- Whether rows i and j of an entry carry the same label. -/
abbrev sameK : IVec S128x32x32 1 :=
  cmpi .eq (broadcastTo S128x32x32 (shapeCast S128x32x1 x1 shapeCasts_S128x32_S128x32x1) broadcasts_S128x32x1_S128x32x32)
    (broadcastTo S128x32x32 (shapeCast S128x1x32 x1 shapeCasts_S128x32_S128x1x32) broadcasts_S128x1x32_S128x32x32)

theorem sameK_apply (r : Fin 128) (i j : Fin 32) :
    sameK x1 (ix3 r i j) = IntOp.cmpi .eq (labK x1 r i) (labK x1 r j) := by
  have e1 : broadcastTo S128x32x32 (shapeCast S128x32x1 x1 shapeCasts_S128x32_S128x32x1) broadcasts_S128x32x1_S128x32x32 (ix3 r i j)
      = x1 (ix2 r i) :=
    (broadcastTo_apply _ _ (ix3 r i j) (ix3 r i (0 : Fin 1)) (fun a => by
      match a with | ⟨0, _⟩ => rfl | ⟨1, _⟩ => rfl | ⟨2, _⟩ => rfl)).trans
    (shapeCast_apply _ _ (ix3 r i (0 : Fin 1)) (ix2 r i) (by
      rw [Shape.rowMajor_val_two, Shape.rowMajor_val_three]
      show r.val * 32 + i.val = (r.val * 32 + i.val) * 1 + 0
      omega))
  have e2 : broadcastTo S128x32x32 (shapeCast S128x1x32 x1 shapeCasts_S128x32_S128x1x32) broadcasts_S128x1x32_S128x32x32 (ix3 r i j)
      = x1 (ix2 r j) :=
    (broadcastTo_apply _ _ (ix3 r i j) (ix3 r (0 : Fin 1) j) (fun a => by
      match a with | ⟨0, _⟩ => rfl | ⟨1, _⟩ => rfl | ⟨2, _⟩ => rfl)).trans
    (shapeCast_apply _ _ (ix3 r (0 : Fin 1) j) (ix2 r j) (by
      rw [Shape.rowMajor_val_two, Shape.rowMajor_val_three]
      show r.val * 32 + j.val = (r.val * 1 + 0) * 32 + j.val
      omega))
  show IntOp.cmpi .eq _ _ = _
  rw [e1, e2]

/-- The triangle's weight, the same for every entry. -/
abbrev wgtK : FVec Ideal S128x32x32 .f32 :=
  broadcastTo S128x32x32
    (shapeCast S1x32x32
      (sitofp .f32 (extui 32 (cmpi .slt (iota .tc S32x32 32 [0] iota_S32x32_d0_w32) (iota .tc S32x32 32 [1] iota_S32x32_d1_w32)) natLt_1_32))
      shapeCasts_S32x32_S1x32x32)
    broadcasts_S1x32x32_S128x32x32

theorem wgtK_apply (r : Fin 128) (i j : Fin 32) : wgtK (ix3 r i j) = upper i j := by
  refine (broadcastTo_apply _ _ (ix3 r i j) (ix3 (0 : Fin 1) i j) (fun a => by
    match a with | ⟨0, _⟩ => rfl | ⟨1, _⟩ => rfl | ⟨2, _⟩ => rfl)).trans ?_
  refine (shapeCast_apply _ _ (ix3 (0 : Fin 1) i j) (ix2 i j) (by
    rw [Shape.rowMajor_val_two, Shape.rowMajor_val_three]
    show i.val * 32 + j.val = (0 * 32 + i.val) * 32 + j.val
    omega)).trans ?_
  show ((((IntOp.cmpi .slt (iota .tc S32x32 32 [0] iota_S32x32_d0_w32 (ix2 i j))
    (iota .tc S32x32 32 [1] iota_S32x32_d1_w32 (ix2 i j))).setWidth 32).toInt : ℝ) : EReal) = _
  rw [iota_single_apply, iota_single_apply]
  show ((((IntOp.cmpi .slt (BitVec.ofNat 32 i.val) (BitVec.ofNat 32 j.val)).setWidth 32).toInt : ℝ) : EReal) = _
  rw [slt_widened_toInt]
  unfold upper
  split <;> simp

/-- The weighted cost of every pair of rows of every entry. -/
abbrev costK : FVec Ideal S128x32x32 .f32 :=
  mulf
    (select (sameK x1) (subf (broadcast S128x32x32 (Scalar.ofBits .f32 0x3F800000#32)) (simsK x0))
      (maximumf (subf (simsK x0) (broadcast S128x32x32 (Scalar.ofBits .f32 0x3F000000#32)))
        (broadcast S128x32x32 (Scalar.ofBits .f32 0x00000000#32))))
    wgtK

theorem costK_apply (r : Fin 128) (i j : Fin 32) :
    costK x0 x1 (ix3 r i j) = pairCost (rowK x0 r i) (rowK x0 r j) (labK x1 r i) (labK x1 r j) * upper i j := by
  show Scalar.select (sameK x1 (ix3 r i j)) (Ideal.ofBits .f32 0x3F800000#32 - simsK x0 (ix3 r i j))
      (max (simsK x0 (ix3 r i j) - Ideal.ofBits .f32 0x3F000000#32) (Ideal.ofBits .f32 0x00000000#32)) * wgtK (ix3 r i j) = _
  rw [sameK_apply, simsK_apply, wgtK_apply]
  rfl

/-! ## The three sums -/

/-- The point's number is the sum, over its block's 128 entries, of each entry's summed weighted cost. -/
theorem pay3_eq :
    k0_pay3 (F := Ideal) x0 x1 = ∑ r : Fin 128, entryLoss (fun i d => x0 (ix3 r i d)) (fun i => x1 (ix2 r i)) := by
  -- the sum over j, at (r, i)
  have s1 : ∀ (r : Fin 128) (i : Fin 32),
      multiReduction .add [2] S128x32 (costK x0 x1) 0x00000000#32 reduces_S128x32x32_S128x32 (.inl rfl) rfl (ix2 r i)
        = ∑ j : Fin 32, costK x0 x1 (ix3 r i j) := fun r i => by
    refine (Ideal.multiReduction_add_single (costK x0 x1) 0x00000000#32 reduces_S128x32x32_S128x32 (.inl rfl) rfl (ix2 r i)).trans ?_
    refine Finset.sum_congr rfl fun j _ => ?_
    exact congrArg (costK x0 x1) (funext fun a => Fin.ext (by match a with | ⟨0, _⟩ => rfl | ⟨1, _⟩ => rfl | ⟨2, _⟩ => rfl))
  -- the sum over i, at r
  have s2 : ∀ r : Fin 128,
      multiReduction .add [1] S128
        (multiReduction .add [2] S128x32 (costK x0 x1) 0x00000000#32 reduces_S128x32x32_S128x32 (.inl rfl) rfl)
        0x00000000#32 reduces_S128x32_S128 (.inl rfl) rfl (ix1 r)
        = ∑ i : Fin 32, ∑ j : Fin 32, costK x0 x1 (ix3 r i j) := fun r => by
    refine (Ideal.multiReduction_add_single _ 0x00000000#32 reduces_S128x32_S128 (.inl rfl) rfl (ix1 r)).trans ?_
    refine Finset.sum_congr rfl fun i _ => ?_
    have e : reduces_S128x32_S128.lift (ix1 r) i = ix2 r i :=
      funext fun a => Fin.ext (by match a with | ⟨0, _⟩ => rfl | ⟨1, _⟩ => rfl)
    rw [e]
    exact s1 r i
  show extractAt ![0, 0]
      (shapeCast S1x1
        (multiReduction .add [1] S1
          (shapeCast S1x128
            (multiReduction .add [1] S128
              (multiReduction .add [2] S128x32 (costK x0 x1) 0x00000000#32 reduces_S128x32x32_S128x32 (.inl rfl) rfl)
              0x00000000#32 reduces_S128x32_S128 (.inl rfl) rfl)
            shapeCasts_S128_S1x128)
          0x00000000#32 reduces_S1x128_S1 (.inl rfl) rfl)
        shapeCasts_S1_S1x1)
      inpos_S1x1_p0_0 = _
  unfold extractAt
  refine (shapeCast_apply _ _ _ (ix1 (0 : Fin 1)) (by
    rw [Shape.rowMajor_val_one, Shape.rowMajor_val_two]; rfl)).trans ?_
  refine (Ideal.multiReduction_add_single _ 0x00000000#32 reduces_S1x128_S1 (.inl rfl) rfl (ix1 (0 : Fin 1))).trans ?_
  refine Finset.sum_congr rfl fun r _ => ?_
  have e : reduces_S1x128_S1.lift (ix1 (0 : Fin 1)) r = ix2 (0 : Fin 1) r :=
    funext fun a => Fin.ext (by match a with | ⟨0, _⟩ => rfl | ⟨1, _⟩ => rfl)
  rw [e]
  refine (shapeCast_apply _ _ (ix2 (0 : Fin 1) r) (ix1 r) (by
    rw [Shape.rowMajor_val_one, Shape.rowMajor_val_two]
    show r.val = 0 * 128 + r.val
    omega)).trans ?_
  refine (s2 r).trans ?_
  unfold entryLoss
  refine Finset.sum_congr rfl fun i _ => Finset.sum_congr rfl fun j _ => ?_
  exact costK_apply x0 x1 r i j

end Cert.KernelIdeal.Pay

end
-- ==== Proof.KernelValue.lean ====
/-
  The kernel's result: the loss of the specification, of its two argument arrays.

  Grid point t works on the block of batch entries 128 t … 128 t + 127: entry r of the block of embeddings is
  entry 128 t + r of the array, and likewise for the labels. So the point's number is the sum of the summed
  weighted costs of those 128 entries, and the 32 points' numbers add up to the sum over all 4096 entries.
  After the region the program reshapes the one-element array to a scalar and divides it by the number of
  counted pairs.
-/
import proofs.«125377_j80152679678796_1_alg».proof.Proof.KernelFold
import proofs.«125377_j80152679678796_1_alg».proof.Proof.KernelPay
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Fold Cert.RhymeLoss
open Idealize.ShloMosaic.ValueIdx

variable (m : (ℓ : Loc nD τ sig) → Buf (Elt Ideal) ℓ) (ρ : Dev nD → PrngReg)

/-- The two argument arrays on core `c`. -/
abbrev embArr (c : Dev nD) : S4096x32x256.Idx → EReal := m ((c : Thread nD τ).loc main_arg0)
abbrev labArr (c : Dev nD) : S4096x32.Idx → BitVec 32 := m ((c : Thread nD τ).loc main_arg1)

/-- The loss of core `c`'s arguments. -/
abbrev lossOf (c : Dev nD) : EReal :=
  loss (fun b i d => embArr m c (ix3 b i d)) (fun b i => labArr m c (ix2 b i))

/-! ## The blocks read through the windows -/

/-- Both input windows step along the batch axis only, one block per grid point. -/
theorem emb_index : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem lab_index : ∀ t : Fin cfg0.N, win0_1.index t 0 = t.val ∧ win0_1.index t 1 = 0 :=
  (by decide +kernel : ∀ t : Fin grid0.N, win0_1.index t 0 = t.val ∧ win0_1.index t 1 = 0)

/-- Entry r of point t's block of embeddings is entry 128 t + r of the array. -/
theorem embBlock_apply (c : Dev nD) (t : Fin cfg0.N) (t' : Fin 32) (ht : t'.val = t.val) (r : Fin 128) (i : Fin 32) (d : Fin 256) :
    embBlock m c t (ix3 r i d) = embArr m c (ix3 (entryOf t' r) i d) := by
  show ((cfg0.win 0).blk t).view.read (Elt Ideal) (V m c (Pipeline.arrRef spec0 0)) (ix3 r i d) = _
  rw [View.read_apply]
  show V m c main_arg0 (((cfg0.win 0).blk t).view.emb (ix3 r i d)) = V m c main_arg0 (ix3 (entryOf t' r) i d)
  refine congrArg _ (funext fun a => Fin.ext ?_)
  match a with
  | ⟨0, _⟩ =>
    show win0_0.index t 0 * 128 + 1 * r.val = 128 * t'.val + r.val
    rw [(emb_index t).1, ht]; omega
  | ⟨1, _⟩ =>
    show win0_0.index t 1 * 32 + 1 * i.val = i.val
    rw [(emb_index t).2.1]; omega
  | ⟨2, _⟩ =>
    show win0_0.index t 2 * 256 + 1 * d.val = d.val
    rw [(emb_index t).2.2]; omega

/-- The same for the labels. -/
theorem labBlock_apply (c : Dev nD) (t : Fin cfg0.N) (t' : Fin 32) (ht : t'.val = t.val) (r : Fin 128) (i : Fin 32) :
    labBlock m c t (ix2 r i) = labArr m c (ix2 (entryOf t' r) i) := by
  show ((cfg0.win 1).blk t).view.read (Elt Ideal) (V m c (Pipeline.arrRef spec0 1)) (ix2 r i) = _
  rw [View.read_apply]
  show V m c main_arg1 (((cfg0.win 1).blk t).view.emb (ix2 r i)) = V m c main_arg1 (ix2 (entryOf t' r) i)
  refine congrArg _ (funext fun a => Fin.ext ?_)
  match a with
  | ⟨0, _⟩ =>
    show win0_1.index t 0 * 128 + 1 * r.val = 128 * t'.val + r.val
    rw [(lab_index t).1, ht]; omega
  | ⟨1, _⟩ =>
    show win0_1.index t 1 * 32 + 1 * i.val = i.val
    rw [(lab_index t).2]; omega

/-! ## The total -/

/-- Point t's number: the summed weighted costs of entries 128 t … 128 t + 127. -/
theorem pointTerm_eq (c : Dev nD) (t : Fin 32) :
    pointTerm m c t.val
      = ∑ r : Fin 128, entryLoss (fun i d => embArr m c (ix3 (entryOf t r) i d)) (fun i => labArr m c (ix2 (entryOf t r) i)) := by
  have hN : cfg0.N = 32 := N_0
  have h : t.val < cfg0.N := by have := t.isLt; omega
  unfold pointTerm
  rw [dif_pos h, Pay.pay3_eq]
  refine Finset.sum_congr rfl fun r _ => ?_
  exact congrArg₂ entryLoss (funext fun i => funext fun d => embBlock_apply m c ⟨t.val, h⟩ t rfl r i d)
    (funext fun i => labBlock_apply m c ⟨t.val, h⟩ t rfl r i)

/-- The 32 points' numbers add up to the sum over all 4096 entries. -/
theorem runSum_eq (c : Dev nD) :
    runSum m c = ∑ b : Fin 4096, entryLoss (fun i d => embArr m c (ix3 b i d)) (fun i => labArr m c (ix2 b i)) := by
  unfold runSum
  rw [Finset.sum_range, sum_entries_by_group]
  exact Finset.sum_congr rfl fun t _ => pointTerm_eq m c t

/-! ## The program's run -/

/-- The scalar result is no window's array and is never scoped, so the run's post speaks of it. -/
theorem result_mem : main_v2 ∈ Pipeline.restRefs sig spec0 :=
  Pipeline.mem_restRefs_of main_v2 rfl (by decide)

/-- Every weakly fair execution ends with the scalar result at the loss of the arguments, the arguments unchanged. -/
theorem run : θ_run defs (onTc (τ := τ) (main (F := Ideal))) ⟨m, fun _ => 0, ρ⟩ fun r => ∀ c : Dev nD,
      r.2.mem ((c.tc : Thread nD τ).loc main_v2) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v2 result_mem).trans ?_
    unfold Pipeline.afterTail₀
    show StableHlo.after hostOps1 _ (Proc.devRef .tc main_v2) = _
    after_results
    funext z
    show Ideal.div (shapeCast S_ (Pipeline.withArrays spec0 c (V0 m c) (fun w => (dats m 0 c).arrAt w cfg0.N)
      (Proc.devRef .tc (Pipeline.arrRef spec0 2))) _ z) (Ideal.ofBits .f32 0x49F80000#32) = _
    rw [Pipeline.withArrays_arr spec0 launch0.win.arr_inj c _ _ 2, final_eq]
    show Ideal.div (runSum m c) pairCount = _
    rw [runSum_eq]
    rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Result

end
-- ==== Proof.lean ====
/-
  A pairwise rhyme loss, tiled over the batch, against the same loss computed in one piece.

  Both programs take 4096 batch entries of 32 rows of 256 numbers and a label per row. They normalise every row
  by its Euclidean norm (kept at least a small constant), take the cosine similarity of every pair of rows of an
  entry, charge a pair with equal labels one minus its similarity and a pair with different labels the excess of
  its similarity over one half, count only pairs (i, j) with i < j, add everything up and divide by the number of
  counted pairs. The kernel does this 128 entries at a time, adding each group's sum into a one-element
  accumulator that it resets at the first group and writes back after the last; the reference sums over all
  entries at once. On the extended reals a sum does not depend on its grouping, so the two results are the same
  number; no property of the inputs is used.

  The parts: the quantity itself and the regrouping of the sum (Spec); the reference's stages read at an index
  (RefSide); the kernel's per-group arithmetic read at an index (KernelPay); the accumulator after each group
  and the one write-back (KernelFold); the blocks as parts of the arrays, the total, and the division after the
  region (KernelValue).
-/
import proofs.«125377_j80152679678796_1_alg».proof.Defs
import proofs.«125377_j80152679678796_1_alg».proof.Proof.Gen.Kernel
import proofs.«125377_j80152679678796_1_alg».proof.Proof.Gen.Kernel.Skeleton
import proofs.«125377_j80152679678796_1_alg».proof.Proof.Gen.Kernel.Launch
import proofs.«125377_j80152679678796_1_alg».proof.Proof.Gen.Kernel.Points
import proofs.«125377_j80152679678796_1_alg».proof.Proof.Gen.Kernel.Frame
import proofs.«125377_j80152679678796_1_alg».proof.Proof.Gen.KernelIdeal
import proofs.«125377_j80152679678796_1_alg».proof.Proof.Gen.KernelIdeal.Skeleton
import proofs.«125377_j80152679678796_1_alg».proof.Proof.Gen.KernelIdeal.Launch
import proofs.«125377_j80152679678796_1_alg».proof.Proof.Gen.KernelIdeal.Points
import proofs.«125377_j80152679678796_1_alg».proof.Proof.Gen.KernelIdeal.Frame
import proofs.«125377_j80152679678796_1_alg».proof.Proof.Gen.ReferenceIdeal
import proofs.«125377_j80152679678796_1_alg».proof.Proof.Gen.ReferenceIdeal.Run
import proofs.«125377_j80152679678796_1_alg».proof.Proof.Gen.ReferenceIdeal.Read
import proofs.«125377_j80152679678796_1_alg».proof.Proof.Gen.Pre_finite_inputs
import proofs.«125377_j80152679678796_1_alg».proof.Proof.RefSide
import proofs.«125377_j80152679678796_1_alg».proof.Proof.KernelValue
import Idealize.ShloMosaic.Adequacy
import Idealize.ShloMosaic.Init

noncomputable section

namespace Cert.Proof

open Idealize.ShloMosaic Idealize.SL.Sem

/-- Each kernel program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories that agree on the two arguments, both programs end with the loss of those arguments. -/
theorem algebraic : Cert.algebraic_KernelIdeal_ReferenceIdeal := by
  intro m ρ m' ρ' _ hagree
  refine ⟨fun c => fun _ => Cert.KernelIdeal.Result.lossOf m c, Cert.KernelIdeal.Result.run m ρ, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v24_eq _ _).trans
    (Cert.ReferenceIdeal.RefValue.result_eq _ _))).trans ?_
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
